-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S51x1024 : Shape := ⟨2, ![51, 1024]⟩
abbrev S51 : Shape := ⟨1, ![51]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S51x1024 : S_.BroadcastsInDim S51x1024 (![] : Fin 0 → Fin S51x1024.rank)
  reducesTo_S51x1024_S_d0_1 : S51x1024.ReducesTo [0, 1] S_
  bcast_S_S51 : S_.BroadcastsInDim S51 (![] : Fin 0 → Fin S51.rank)
  reducesTo_S51_S_d0 : S51.ReducesTo [0] S_

variable [Facts]

def fn_part1 {F : FTy → Type} [FloatOps F] (main_v13 : IVec S_ 1) (main_v16 : IVec S51 1) : IVec S_ 1 :=
  let main_c_5 : IVec S_ 1 := constantI S_ 1 1#1
  let main_v17 : IVec S_ 1 := (fun x v => Host.reduce IntOp.andi x v reducesTo_S51_S_d0 h_S_) main_v16 main_c_5
  let main_v18 : IVec S_ 1 := andi main_v13 main_v17
  main_v18

def fn {F : FTy → Type} [FloatOps F] (main_arg0 : FVec F S16384x1024 .f32) (main_arg1 : FVec F S51x1024 .f32) (main_arg2 : FVec F S51 .f32) (main_arg3 : FVec F S51 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S51x1024 .f32 := Host.absf main_arg1
  let main_cst_0 : FVec F S_ .f32 := constant S_ .f32 0x7F800000#32
  let main_v5 : FVec F S51x1024 .f32 := broadcastInDim S51x1024 ![] bcast_S_S51x1024 main_cst_0
  let main_v6 : IVec S51x1024 1 := cmpf .olt main_v4 main_v5
  let main_c_1 : IVec S_ 1 := constantI S_ 1 1#1
  let main_v7 : IVec S_ 1 := (fun x v => Host.reduce IntOp.andi x v reducesTo_S51x1024_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  let main_v14 : FVec F S51 .f32 := Host.absf main_arg3
  let main_cst_4 : FVec F S_ .f32 := constant S_ .f32 0x7F800000#32
  let main_v15 : FVec F S51 .f32 := broadcastInDim S51 ![] bcast_S_S51 main_cst_4
  let main_v16 : IVec S51 1 := cmpf .olt main_v14 main_v15
  fn_part1 (F := F) main_v13 main_v16
-- ==== Kernel.lean ====
abbrev S16384x1024 : Shape := ⟨2, ![16384, 1024]⟩
abbrev S51x1024 : Shape := ⟨2, ![51, 1024]⟩
abbrev S51 : Shape := ⟨1, ![51]⟩
abbrev S51x1 : Shape := ⟨2, ![51, 1]⟩
abbrev S51x16384 : Shape := ⟨2, ![51, 16384]⟩
abbrev S16x1x1024 : Shape := ⟨3, ![16, 1, 1024]⟩
abbrev S16384x51 : Shape := ⟨2, ![16384, 51]⟩
abbrev S16384 : Shape := ⟨1, ![16384]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S51x1024, .f32⟩
  | .hbm, ⟨2, _⟩ => ⟨S51, .f32⟩
  | .hbm, ⟨3, _⟩ => ⟨S51, .f32⟩
  | .hbm, ⟨4, _⟩ => ⟨S51x1, .f32⟩
  | .hbm, ⟨5, _⟩ => ⟨S51x1, .f32⟩
  | .hbm, ⟨6, _⟩ => ⟨S51x16384, .f32⟩
  | .hbm, ⟨7, _⟩ => ⟨S16x1x1024, .f32⟩
  | .hbm, ⟨8, _⟩ => ⟨S16384x51, .f32⟩
  | .hbm, ⟨9, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S51x1024, .f32⟩
  | .local _ .vmem, ⟨3, _⟩ => ⟨S51x1, .f32⟩
  | .local _ .vmem, ⟨4, _⟩ => ⟨S51x1, .f32⟩
  | .local _ .vmem, ⟨5, _⟩ => ⟨S51x1024, .f32⟩
  | .local _ .vmem, ⟨6, _⟩ => ⟨S51x1024, .f32⟩
  | .local _ .vmem, ⟨7, _⟩ => ⟨S1x1x1024, .f32⟩
  | .local _ .vmem, ⟨8, _⟩ => ⟨S1x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_call0_v2_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S51x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S51x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S51x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S51x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S51_S51x1 : S51.ShapeCasts S51x1
  transposes_S51x16384_S16384x51_1_0 : S51x16384.Transposes [1, 0] S16384x51
  shapeCasts_S16x1x1024_S16384 : S16x1x1024.ShapeCasts S16384
  inb_S51x1024_S51x1024_0_0 : ∀ a, (![0, 0] : Fin 2 → Nat) a + S51x1024.size a ≤ S51x1024.size a
  h_S51x1024 : 0 < S51x1024.numel
  inb_S1024x1024_S1024x1024_0_0 : ∀ a, (![0, 0] : Fin 2 → Nat) a + S1024x1024.size a ≤ S1024x1024.size a
  h_S1024x1024 : 0 < S1024x1024.numel
  inb_S51x1_S51x1_0_0 : ∀ a, (![0, 0] : Fin 2 → Nat) a + S51x1.size a ≤ S51x1.size a
  h_S51x1 : 0 < S51x1.numel
  shapeCasts_S51x1_S51x1 : S51x1.ShapeCasts S51x1
  broadcasts_S51x1_S51x1024 : S51x1.Broadcasts S51x1024
  reduces_S51x1024_S1024 : S51x1024.Reduces [0] S1024
  shapeCasts_S1024_S1x1024 : S1024.ShapeCasts S1x1024
  broadcasts_S1x1024_S51x1024 : S1x1024.Broadcasts S51x1024
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  dot_S51x1024_S1024x1024_S51x1024_1_1_0_0_n_n_wf : DotDims.WF S51x1024 S1024x1024 S51x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S51x1024.size a ≤ S51x1024.size a
  hwx0_1 : ∀ i : grid0.Coords, EltTy.bits .f32 = 32 ∨ (Rect.block (s := S51x1024) S51x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51x1.size a ≤ S51x1.size a
  hwx0_2 : ∀ i : grid0.Coords, EltTy.bits .f32 = 32 ∨ (Rect.block (s := S51x1) S51x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51x1.size a ≤ S51x1.size a
  hwx0_3 : ∀ i : grid0.Coords, EltTy.bits .f32 = 32 ∨ (Rect.block (s := S51x1) S51x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S51x1024.size a ≤ S51x16384.size a
  hwx0_4 : ∀ i : grid0.Coords, EltTy.bits .f32 = 32 ∨ (Rect.block (s := S51x16384) S51x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S51x1024_S1024x1024_S51x1024_1_1_0_0_n_n : DotDims S51x1024 S1024x1024 S51x1024 where
  lhsContracting := [1]
  rhsContracting := [1]
  lhsNonContracting := [0]
  rhsNonContracting := [0]
  lhsBatch := []
  rhsBatch := []
  wf := dot_S51x1024_S1024x1024_S51x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S51x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S51x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S51x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_0) S51x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S51x1024 : Shape := ⟨2, ![51, 1024]⟩
abbrev S51 : Shape := ⟨1, ![51]⟩
abbrev S1024x51 : Shape := ⟨2, ![1024, 51]⟩
abbrev S16384x51 : Shape := ⟨2, ![16384, 51]⟩
abbrev S1x51 : Shape := ⟨2, ![1, 51]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S51x1024, .f32⟩
  | .hbm, ⟨2, _⟩ => ⟨S51, .f32⟩
  | .hbm, ⟨3, _⟩ => ⟨S51, .f32⟩
  | .hbm, ⟨4, _⟩ => ⟨S1024x51, .f32⟩
  | .hbm, ⟨5, _⟩ => ⟨S16384x51, .f32⟩
  | .hbm, ⟨6, _⟩ => ⟨S1x51, .f32⟩
  | .hbm, ⟨7, _⟩ => ⟨S16384x51, .f32⟩
  | .hbm, ⟨8, _⟩ => ⟨S16384x51, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x51, .f32⟩
  | .hbm, ⟨16, _⟩ => ⟨S16384x51, .f32⟩
  | .hbm, ⟨17, _⟩ => ⟨S16384x51, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x51, .f32⟩
  | .hbm, ⟨22, _⟩ => ⟨S16384x51, .f32⟩
  | .hbm, ⟨23, _⟩ => ⟨S1x51, .f32⟩
  | .hbm, ⟨24, _⟩ => ⟨S16384x51, .f32⟩
  | .hbm, ⟨25, _⟩ => ⟨S16384x51, .f32⟩
  | .hbm, ⟨26, _⟩ => ⟨S_, .f32⟩
  | .hbm, ⟨27, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S51x1024_S1024x51_1_0 : S51x1024.Transposes [1, 0] S1024x51
  bcast_S51_S1x51_1 : S51.BroadcastsInDim S1x51 (![1] : Fin 1 → Fin S1x51.rank)
  bcast_S1x51_S16384x51_0_1 : S1x51.BroadcastsInDim S16384x51 (![0, 1] : Fin 2 → Fin S16384x51.rank)
  reducesTo_S16384x51_S16384_d1 : S16384x51.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x51_0_1 : S16384x1.BroadcastsInDim S16384x51 (![0, 1] : Fin 2 → Fin S16384x51.rank)
  dot_S16384x1024_S1024x51_S16384x51_1_0_0_1_n_n_wf : DotDims.WF S16384x1024 S1024x51 S16384x51 [1] [0] [0] [1] [] []

variable [Facts₀]

def dot_S16384x1024_S1024x51_S16384x51_1_0_0_1_n_n : DotDims S16384x1024 S1024x51 S16384x51 where
  lhsContracting := [1]
  rhsContracting := [0]
  lhsNonContracting := [0]
  rhsNonContracting := [1]
  lhsBatch := []
  rhsBatch := []
  wf := dot_S16384x1024_S1024x51_S16384x51_1_0_0_1_n_n_wf

class Facts : Prop extends Facts₀ where

variable [Facts]
-- ==== Proof.RowSpec.lean ====
/-
  One row of a softmax value head, as mathematics on the extended reals, independent of any program.

  For one input row `xr` (length `K`), weights `W` (`C` classes by `K`), bias `b` and bin values `bins`:
  the logit of class `c` is `∑ k, xr k * W c k + b c`; the row maximum `M` is the maximum of the logits (from `⊥`);
  `e c = exp (logit c - M)`; the denominator is `s = ∑ c, e c`.

  Two arrangements of the normalised result are defined:
  * dividing each term: `p c = e c / s` and `v = ∑ c, p c * bins c`;
  * multiplying by the reciprocal: `p' c = e c * (1 / s)` and `v' = (∑ c, e c * bins c) * (1 / s)`.

  When the row, the weights and the bias are real numbers the two agree: the logits are then real, so their maximum
  over a nonempty set of classes is real, every `e c` is a positive real, `s` is a positive real, `1 / s` is the
  nonnegative real `s⁻¹`, and multiplication by a nonnegative real distributes over any sum of extended reals.
-/
import Idealize.ShloMosaic.PureOps.Ideal
import Idealize.ShloMosaic.PureOps.Ideal.Laws

noncomputable section

open scoped BigOperators

namespace Cert.Proof.Head

open Idealize.ShloMosaic

variable {K C : Nat}

/-- The logit of class `c`: the row's inner product with the class's weights, plus the class's bias. -/
def rowLogit (xr : Fin K → EReal) (W : Fin C → Fin K → EReal) (b : Fin C → EReal) (c : Fin C) : EReal :=
  (∑ k : Fin K, xr k * W c k) + b c

/-- The maximum of the row's logits, taken from `⊥`. -/
def rowMax (xr : Fin K → EReal) (W : Fin C → Fin K → EReal) (b : Fin C → EReal) : EReal :=
  (Finset.univ : Finset (Fin C)).fold max ⊥ (rowLogit xr W b)

/-- The shifted exponential of class `c`. -/
def rowExp (xr : Fin K → EReal) (W : Fin C → Fin K → EReal) (b : Fin C → EReal) (c : Fin C) : EReal :=
  Ideal.exp (rowLogit xr W b c - rowMax xr W b)

/-- The softmax denominator: the sum of the shifted exponentials. -/
def rowDen (xr : Fin K → EReal) (W : Fin C → Fin K → EReal) (b : Fin C → EReal) : EReal :=
  ∑ c : Fin C, rowExp xr W b c

/-- The probability of class `c`, each exponential DIVIDED by the denominator. -/
def rowProbs (xr : Fin K → EReal) (W : Fin C → Fin K → EReal) (b : Fin C → EReal) (c : Fin C) : EReal :=
  Ideal.div (rowExp xr W b c) (rowDen xr W b)

/-- The expected bin value: the sum of probability times bin value. -/
def rowValue (xr : Fin K → EReal) (W : Fin C → Fin K → EReal) (b bins : Fin C → EReal) : EReal :=
  ∑ c : Fin C, rowProbs xr W b c * bins c

/-- The probability of class `c`, each exponential MULTIPLIED by the denominator's reciprocal. -/
def rowProbsK (xr : Fin K → EReal) (W : Fin C → Fin K → EReal) (b : Fin C → EReal) (c : Fin C) : EReal :=
  rowExp xr W b c * Ideal.div 1 (rowDen xr W b)

/-- The expected bin value with the reciprocal taken out of the sum. -/
def rowValueK (xr : Fin K → EReal) (W : Fin C → Fin K → EReal) (b bins : Fin C → EReal) : EReal :=
  (∑ c : Fin C, rowExp xr W b c * bins c) * Ideal.div 1 (rowDen xr W b)

/-! ## Sums of reals, and a nonnegative real factor across a sum -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any finite sum of extended reals. -/
theorem sum_mul_coe {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert j s hj ih =>
    rw [Finset.sum_insert hj, Finset.sum_insert hj,
      EReal.right_distrib_of_nonneg_of_ne_top (EReal.coe_nonneg.mpr ha) (EReal.coe_ne_top a), ih]

/-! ## Real inputs make every intermediate value real -/

/-- With real inputs the logit is the real `∑ k, x k * w c k + b c`. -/
theorem rowLogit_coe (x : Fin K → ℝ) (w : Fin C → Fin K → ℝ) (β : Fin C → ℝ) (c : Fin C) :
    rowLogit (fun k => (x k : EReal)) (fun c k => (w c k : EReal)) (fun c => (β c : EReal)) c
      = ((∑ k : Fin K, x k * w c k + β c : ℝ) : EReal) := by
  unfold rowLogit
  rw [EReal.coe_add, coe_sum]
  simp only [EReal.coe_mul]

/-- The maximum, from `⊥`, of finitely many reals over a nonempty index set is a real. -/
theorem fold_max_coe (hC : 0 < C) (l : Fin C → ℝ) :
    ∃ M : ℝ, (Finset.univ : Finset (Fin C)).fold max (⊥ : EReal) (fun c => (l c : EReal)) = (M : EReal) := by
  have hlt : (Finset.univ : Finset (Fin C)).fold max (⊥ : EReal) (fun c => (l c : EReal)) < ⊤ :=
    (Finset.fold_max_lt _).mpr ⟨bot_lt_top, fun c _ => EReal.coe_lt_top (l c)⟩
  have hgt : (⊥ : EReal) < (Finset.univ : Finset (Fin C)).fold max (⊥ : EReal) (fun c => (l c : EReal)) :=
    (Finset.lt_fold_max _).mpr (Or.inr ⟨⟨0, hC⟩, Finset.mem_univ _, EReal.bot_lt_coe _⟩)
  exact ⟨_, (EReal.coe_toReal hlt.ne hgt.ne').symm⟩

/-- With real inputs and at least one class the denominator is a positive real, and every shifted exponential a real. -/
theorem rowDen_coe (hC : 0 < C) (x : Fin K → ℝ) (w : Fin C → Fin K → ℝ) (β : Fin C → ℝ) :
    ∃ d : ℝ, 0 < d ∧
      rowDen (fun k => (x k : EReal)) (fun c k => (w c k : EReal)) (fun c => (β c : EReal)) = (d : EReal) := by
  obtain ⟨M, hM⟩ := fold_max_coe hC (fun c => ∑ k : Fin K, x k * w c k + β c)
  have hmax : rowMax (fun k => (x k : EReal)) (fun c k => (w c k : EReal)) (fun c => (β c : EReal)) = (M : EReal) := by
    unfold rowMax
    rw [show rowLogit (fun k => (x k : EReal)) (fun c k => (w c k : EReal)) (fun c => (β c : EReal))
        = fun c => ((∑ k : Fin K, x k * w c k + β c : ℝ) : EReal) from funext (rowLogit_coe x w β)]
    exact hM
  have hexp : ∀ c, rowExp (fun k => (x k : EReal)) (fun c k => (w c k : EReal)) (fun c => (β c : EReal)) c
      = ((Real.exp (∑ k : Fin K, x k * w c k + β c - M) : ℝ) : EReal) := fun c => by
    unfold rowExp
    rw [hmax, rowLogit_coe, ← EReal.coe_sub, Ideal.exp_coe]
  refine ⟨∑ c : Fin C, Real.exp (∑ k : Fin K, x k * w c k + β c - M),
    Finset.sum_pos (fun c _ => Real.exp_pos _) ⟨⟨0, hC⟩, Finset.mem_univ _⟩, ?_⟩
  unfold rowDen
  rw [coe_sum]
  exact Finset.sum_congr rfl fun c _ => hexp c

/-! ## The two arrangements agree on real inputs -/

/-- On a row of reals, weights of reals and a bias of reals (any bin values), with at least one class:
    multiplying by the reciprocal of the denominator is dividing by it, term by term and for the expected value. -/
theorem recip_form_eq (hC : 0 < C) (xr : Fin K → EReal) (W : Fin C → Fin K → EReal) (b bins : Fin C → EReal)
    (hx : ∀ k, ∃ r : ℝ, xr k = (r : EReal)) (hW : ∀ c k, ∃ r : ℝ, W c k = (r : EReal))
    (hb : ∀ c, ∃ r : ℝ, b c = (r : EReal)) :
    (∀ c, rowProbsK xr W b c = rowProbs xr W b c) ∧ rowValueK xr W b bins = rowValue xr W b bins := by
  choose x hx using hx
  choose w hw using hW
  choose β hβ using hb
  obtain rfl : xr = fun k => (x k : EReal) := funext hx
  obtain rfl : W = fun c k => (w c k : EReal) := funext fun c => funext fun k => hw c k
  obtain rfl : b = fun c => (β c : EReal) := funext hβ
  obtain ⟨d, hd, hden⟩ := rowDen_coe hC x w β
  have hd0 : (d : EReal) ≠ 0 := by exact_mod_cast hd.ne'
  have hone : Ideal.div 1 (d : EReal) = ((d⁻¹ : ℝ) : EReal) := by
    rw [Ideal.div, if_neg hd0, one_mul, EReal.coe_inv]
  have hterm : ∀ e : EReal, Ideal.div e (d : EReal) = e * ((d⁻¹ : ℝ) : EReal) := fun e => by
    rw [Ideal.div, if_neg hd0, EReal.coe_inv]
  constructor
  · intro c
    unfold rowProbsK rowProbs
    rw [hden, hone, hterm]
  · unfold rowValueK rowValue rowProbs
    rw [hden, hone, sum_mul_coe _ _ _ (inv_nonneg.mpr hd.le)]
    refine Finset.sum_congr rfl fun c _ => ?_
    rw [hterm, mul_right_comm]

end Cert.Proof.Head

end
-- ==== Proof.ArraySpec.lean ====
/-
  The two results as whole-array functions of the four arguments, built row by row from the row-level definitions:
  the probabilities `[16384, 51]` and the expected values `[16384]`, each in the arrangement that divides every
  term by the denominator and in the arrangement that multiplies by its reciprocal. On arguments whose entries are
  reals the two arrangements are the same arrays.
-/
import proofs.«142988_g26946624815573_cont_9to1_241_19_alg».proof.Proof.RowSpec
import Idealize.ShloMosaic.Lib.ValueIdx

noncomputable section

namespace Cert.Proof.Head

open Idealize.ShloMosaic Idealize.ShloMosaic.ValueIdx

/-- Row `r` of the `[16384, 1024]` input. -/
def xRow (x : (⟨2, ![16384, 1024]⟩ : Shape).Idx → EReal) (r : Fin 16384) : Fin 1024 → EReal := fun k => x (ix2 r k)
/-- The `[51, 1024]` weights by class and feature. -/
def wMat (w : (⟨2, ![51, 1024]⟩ : Shape).Idx → EReal) : Fin 51 → Fin 1024 → EReal := fun c k => w (ix2 c k)
/-- A `[51]` vector by class. -/
def vec51 (b : (⟨1, ![51]⟩ : Shape).Idx → EReal) : Fin 51 → EReal := fun c => b (ix1 c)

variable (x : (⟨2, ![16384, 1024]⟩ : Shape).Idx → EReal) (w : (⟨2, ![51, 1024]⟩ : Shape).Idx → EReal)
  (b bins : (⟨1, ![51]⟩ : Shape).Idx → EReal)

/-- The probabilities, each exponential divided by its row's denominator. -/
def probsArr : (⟨2, ![16384, 51]⟩ : Shape).Idx → EReal :=
  fun i => rowProbs (xRow x (i 0)) (wMat w) (vec51 b) (i 1)
/-- The expected bin values, from those probabilities. -/
def valueArr : (⟨1, ![16384]⟩ : Shape).Idx → EReal :=
  fun i => rowValue (xRow x (i 0)) (wMat w) (vec51 b) (vec51 bins)
/-- The probabilities, each exponential multiplied by the reciprocal of its row's denominator. -/
def probsArrK : (⟨2, ![16384, 51]⟩ : Shape).Idx → EReal :=
  fun i => rowProbsK (xRow x (i 0)) (wMat w) (vec51 b) (i 1)
/-- The expected bin values with the reciprocal taken out of the sum. -/
def valueArrK : (⟨1, ![16384]⟩ : Shape).Idx → EReal :=
  fun i => rowValueK (xRow x (i 0)) (wMat w) (vec51 b) (vec51 bins)

/-- On arguments of reals (the bin values may be anything) the two arrangements are the same arrays. -/
theorem recip_arrays_eq (hx : ∀ i, ∃ r : ℝ, x i = (r : EReal)) (hw : ∀ i, ∃ r : ℝ, w i = (r : EReal))
    (hb : ∀ i, ∃ r : ℝ, b i = (r : EReal)) :
    probsArrK x w b = probsArr x w b ∧ valueArrK x w b bins = valueArr x w b bins := by
  have key := fun r : Fin 16384 => recip_form_eq (K := 1024) (C := 51) (by decide) (xRow x r) (wMat w) (vec51 b) (vec51 bins)
    (fun k => hx _) (fun c k => hw _) (fun c => hb _)
  exact ⟨funext fun i => (key (i 0)).1 (i 1), funext fun i => (key (i 0)).2⟩

end Cert.Proof.Head

end
-- ==== Proof.Finite.lean ====
/-
  What the precondition says: every entry of the four float inputs is a real number.

  The precondition is the conjunction of four tests "every entry's absolute value is below +∞", one per input. An
  extended real whose absolute value `max x (-x)` is below `⊤` is neither `⊤` nor `⊥`, so it is a real.
-/
import proofs.«142988_g26946624815573_cont_9to1_241_19_alg».proof.Pre_finite_inputs
import Idealize.ShloMosaic.Lib.ReduceAll
import Idealize.ShloMosaic.Lib.ValueIdx
import Idealize.ShloMosaic.PureOps.Ideal.Laws

noncomputable section

namespace Cert.Proof.Head

open Idealize.ShloMosaic Cert.Pre_finite_inputs

/-- The scalar shape has one index. -/
instance subsingleton_scalar_idx : Subsingleton S_.Idx := ⟨fun a b => funext fun d => d.elim0⟩

/-- The f32 pattern of +∞ denotes `⊤`. -/
theorem ofBits_inf_f32 : Ideal.ofBits .f32 0x7F800000#32 = ⊤ := by simp [Ideal.ofBits, Ideal.ieee]

/-- An extended real whose absolute value compares below +∞ is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_inf_f32] at h
  have h' : max x (-x) < ⊤ := by
    by_contra hn
    simp only [Ideal.cmpf_def, Ideal.cmp, Ideal.hostAbsf_def, Ideal.absf_def] at h
    rw [decide_eq_false hn] at h
    exact absurd h (by decide)
  induction x using EReal.rec with
  | bot => simp at h'
  | top => simp at h'
  | coe r => exact ⟨r, rfl⟩

/-- Under the precondition every entry of every input is a real. -/
theorem real_of_pre [Facts] (a0 : FVec Ideal S16384x1024 .f32) (a1 : FVec Ideal S51x1024 .f32) (a2 a3 : FVec Ideal S51 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Proof.Head

end
-- ==== Proof.Reference.lean ====
/-
  The reference computes the specification. Read one operation at a time at an index:
  the `dot_general` of `x` with the transposed weights plus the broadcast bias is the logit of (row, class);
  the maximum of `-∞` with the max-reduce over classes is the row maximum; the exponential of the difference is the
  shifted exponential; the add-reduce from `0` is the denominator; the quotient is the probability; and the
  add-reduce of probability times broadcast bin value is the expected value.
-/
import proofs.«142988_g26946624815573_cont_9to1_241_19_alg».proof.Defs
import proofs.«142988_g26946624815573_cont_9to1_241_19_alg».proof.Proof.Gen.ReferenceIdeal.Run
import proofs.«142988_g26946624815573_cont_9to1_241_19_alg».proof.Proof.Gen.ReferenceIdeal.Read
import proofs.«142988_g26946624815573_cont_9to1_241_19_alg».proof.Proof.ArraySpec

noncomputable section

namespace Cert.Proof.Reference

open Idealize.ShloMosaic Idealize.ShloMosaic.ValueIdx Cert.ReferenceIdeal Cert.ReferenceIdeal.Gen Cert.ReferenceIdeal.Read
open Cert.Proof.Head

variable (x : (⟨S16384x1024, .f32⟩ : BufTy).Contents (Elt Ideal)) (w : (⟨S51x1024, .f32⟩ : BufTy).Contents (Elt Ideal))
  (b bins : (⟨S51, .f32⟩ : BufTy).Contents (Elt Ideal))

/-- The f32 pattern of -∞ denotes `⊥`. -/
theorem ofBits_ninf_f32 : Ideal.ofBits .f32 0xFF800000#32 = ⊥ := by simp [Ideal.ofBits, Ideal.ieee]

/-- Reducing `[16384, 51]` over its class axis. -/
theorem reduces_classes : S16384x51.Reduces [1] S16384 := by decide

/-- The pre-softmax stage at (row, class) is the logit. -/
theorem logit_eq (r : Fin 16384) (c : Fin 51) :
    val_main_v4 (F := Ideal) x w b (ix2 r c) = rowLogit (xRow x r) (wMat w) (vec51 b) c := by
  have e1 : ∀ k, lidx_main_v1 (ix2 r c) k = ix2 r k := fun k =>
    funext fun a => Fin.ext (by match a with | ⟨0, _⟩ => rfl | ⟨1, _⟩ => rfl)
  have e2 : ∀ k, idx_main_v0 (ridx_main_v1 (ix2 r c) k) = ix2 c k := fun k =>
    funext fun a => Fin.ext (by match a with | ⟨0, _⟩ => rfl | ⟨1, _⟩ => rfl)
  have e3 : idx_main_v2 (idx_main_v3 (ix2 r c)) = ix1 c :=
    funext fun a => Fin.ext (by match a with | ⟨0, _⟩ => rfl)
  rw [val_main_v4_apply, val_main_v1_apply, val_main_v3_apply, val_main_v2_apply]
  simp only [val_main_v0_apply, e1, e2, e3]
  rfl

/-- The row-maximum stage at a row is the row maximum of the logits. -/
theorem max_eq (r : Fin 16384) :
    val_main_v7 (F := Ideal) x w b (ix1 r) = rowMax (xRow x r) (wMat w) (vec51 b) := by
  rw [val_main_v7_apply, val_main_v6_apply, val_main_cst_0_apply]
  unfold val_main_v5
  rw [Host.reduce_eq_fold_single FloatOps.maximumf _ _ reducesTo_S16384x51_S16384_d1 reduces_classes h_S_,
    val_main_cst_apply]
  simp only [Ideal.ofBits_def, ofBits_ninf_f32, Ideal.maximumf_def, bot_le, max_eq_right]
  unfold rowMax
  refine congrArg (fun f : Fin 51 → EReal => Finset.fold max ⊥ f Finset.univ) (funext fun c : Fin 51 => ?_)
  have e : reduces_classes.lift (ix1 r) c = ix2 r c :=
    funext fun a => Fin.ext (by match a with | ⟨0, _⟩ => rfl | ⟨1, _⟩ => rfl)
  show val_main_v4 (F := Ideal) x w b (reduces_classes.lift (ix1 r) c) = _
  rw [e, logit_eq]

/-- The exponential stage at (row, class) is the shifted exponential. -/
theorem exp_eq (r : Fin 16384) (c : Fin 51) :
    val_main_v11 (F := Ideal) x w b (ix2 r c) = rowExp (xRow x r) (wMat w) (vec51 b) c := by
  have e : idx_main_v8 (idx_main_v9 (ix2 r c)) = ix1 r :=
    funext fun a => Fin.ext (by match a with | ⟨0, _⟩ => rfl)
  rw [val_main_v11_apply, val_main_v10_apply, val_main_v9_apply, val_main_v8_apply, e, max_eq, logit_eq]
  rfl

/-- The denominator stage at a row is the sum of the shifted exponentials. -/
theorem den_eq (r : Fin 16384) :
    val_main_v12 (F := Ideal) x w b (ix1 r) = rowDen (xRow x r) (wMat w) (vec51 b) := by
  have e : ∀ k, idx_main_v12 (ix1 r) k = ix2 r k := fun k =>
    funext fun a => Fin.ext (by match a with | ⟨0, _⟩ => rfl | ⟨1, _⟩ => rfl)
  rw [val_main_v12_apply, val_main_cst_1_apply]
  simp only [e, exp_eq, Ideal.ofBits_def, Ideal.ofBits_zero_f32, zero_add]
  rfl

/-- The first result is the probabilities. -/
theorem probs_eq : val_main_v15 (F := Ideal) x w b = probsArr x w b := by
  funext i
  obtain ⟨r, c, rfl⟩ : ∃ (r : Fin 16384) (c : Fin 51), i = ix2 r c := ⟨i 0, i 1, eq_ix2 i⟩
  have e : idx_main_v13 (idx_main_v14 (ix2 r c)) = ix1 r :=
    funext fun a => Fin.ext (by match a with | ⟨0, _⟩ => rfl)
  rw [val_main_v15_apply, val_main_v14_apply, val_main_v13_apply, e, den_eq, exp_eq]
  rfl

/-- The second result is the expected values. -/
theorem value_eq : val_main_v19 (F := Ideal) x w b bins = valueArr x w b bins := by
  funext i
  obtain ⟨r, rfl⟩ : ∃ r : Fin 16384, i = ix1 r := ⟨i 0, eq_ix1 i⟩
  have e : ∀ k, idx_main_v19 (ix1 r) k = ix2 r k := fun k =>
    funext fun a => Fin.ext (by match a with | ⟨0, _⟩ => rfl | ⟨1, _⟩ => rfl)
  have e' : ∀ k : Fin 51, idx_main_v16 (idx_main_v17 (ix2 r k)) = ix1 k := fun k =>
    funext fun a => Fin.ext (by match a with | ⟨0, _⟩ => rfl)
  rw [val_main_v19_apply, val_main_cst_2_apply]
  simp only [e, val_main_v18_apply, val_main_v17_apply, val_main_v16_apply, e', probs_eq, Ideal.ofBits_def,
    Ideal.ofBits_zero_f32, zero_add]
  rfl

end Cert.Proof.Reference

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Payload.lean ====
/-
  The kernel body's stored values, read at an index, as the row-level definitions of the blocks it loads.

  The body works on one block of 1024 input rows, in the transposed orientation: classes down the rows of a
  `[51, 1024]` vector and the block's input rows along its columns. With `W` the weights, `X` the block of inputs,
  and the bias and bin values as `[51, 1]` columns:
  * the matrix product of `W` with `X` contracted over the features, plus the bias column broadcast along the
    columns, holds at (class, row) the logit of that row and class (the factors of each product in the other order);
  * the maximum over the class axis, re-broadcast down the rows, is the row maximum;
  * the sum over the class axis of the exponentials is the denominator, and the quotient of `1.0` by it the reciprocal;
  * the first stored vector is exponential times reciprocal, the second the class-sum of exponential times bin value,
    times the reciprocal.
-/
import proofs.«142988_g26946624815573_cont_9to1_241_19_alg».proof.Proof.Gen.KernelIdeal.Skeleton
import proofs.«142988_g26946624815573_cont_9to1_241_19_alg».proof.Proof.ArraySpec
import proofs.«142988_g26946624815573_cont_9to1_241_19_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Proof.Payload

open Idealize.ShloMosaic Idealize.ShloMosaic.ValueIdx Cert.KernelIdeal Cert.Proof.Head

/-- Row `q` of a `[1024, 1024]` block of inputs. -/
def blkRow (xv : (⟨2, ![1024, 1024]⟩ : Shape).Idx → EReal) (q : Fin 1024) : Fin 1024 → EReal := fun k => xv (ix2 q k)
/-- A `[51, 1]` column by class. -/
def col51 (bv : (⟨2, ![51, 1]⟩ : Shape).Idx → EReal) : Fin 51 → EReal := fun c => bv (ix2 c 0)

/-- The f32 pattern of -∞ denotes `⊥`. -/
theorem ofBits_ninf_f32 : Ideal.ofBits .f32 0xFF800000#32 = ⊥ := by simp [Ideal.ofBits, Ideal.ieee]
/-- The f32 pattern of 1.0 denotes `1`. -/
theorem ofBits_one_f32 : Ideal.ofBits .f32 0x3F800000#32 = 1 := by
  simp [Ideal.ofBits, Ideal.ieee, -EReal.coe_mul]; norm_num

/-! ## The matrix product at an index -/

theorem lhs_0 (i : S51x1024.Idx) (q : dot_S51x1024_S1024x1024_S51x1024_1_1_0_0_n_n.contr.Idx) :
    (dot_S51x1024_S1024x1024_S51x1024_1_1_0_0_n_n.lhsIdx i q 0).val = (i 0).val := by
  unfold DotDims.lhsIdx
  rw [dif_neg (show ¬(0 : Fin S51x1024.rank) ∈ dot_S51x1024_S1024x1024_S51x1024_1_1_0_0_n_n.lhsBatch by decide), dif_pos (show (0 : Fin S51x1024.rank) ∈ dot_S51x1024_S1024x1024_S51x1024_1_1_0_0_n_n.lhsNonContracting by decide)]
  rfl
theorem lhs_1 (i : S51x1024.Idx) (q : dot_S51x1024_S1024x1024_S51x1024_1_1_0_0_n_n.contr.Idx) :
    (dot_S51x1024_S1024x1024_S51x1024_1_1_0_0_n_n.lhsIdx i q 1).val = (q ⟨0, by decide⟩).val :=
  dot_S51x1024_S1024x1024_S51x1024_1_1_0_0_n_n.lhsIdx_val_of_single rfl i q
theorem rhs_0 (i : S51x1024.Idx) (q : dot_S51x1024_S1024x1024_S51x1024_1_1_0_0_n_n.contr.Idx) :
    (dot_S51x1024_S1024x1024_S51x1024_1_1_0_0_n_n.rhsIdx i q 0).val = (i 1).val := by
  unfold DotDims.rhsIdx
  rw [dif_neg (show ¬(0 : Fin S1024x1024.rank) ∈ dot_S51x1024_S1024x1024_S51x1024_1_1_0_0_n_n.rhsBatch by decide), dif_pos (show (0 : Fin S1024x1024.rank) ∈ dot_S51x1024_S1024x1024_S51x1024_1_1_0_0_n_n.rhsNonContracting by decide)]
  rfl
theorem rhs_1 (i : S51x1024.Idx) (q : dot_S51x1024_S1024x1024_S51x1024_1_1_0_0_n_n.contr.Idx) :
    (dot_S51x1024_S1024x1024_S51x1024_1_1_0_0_n_n.rhsIdx i q 1).val = (q ⟨0, by decide⟩).val :=
  dot_S51x1024_S1024x1024_S51x1024_1_1_0_0_n_n.rhsIdx_val_of_single rfl i q

/-- The product of the weights with the block, contracted over the features, into a zero accumulator: at
    (class `c`, row `q`) the sum over features of weight times input. -/
theorem matmul_at (wv : FVec Ideal S51x1024 .f32) (xv : FVec Ideal S1024x1024 .f32) (c : Fin 51) (q : Fin 1024) :
    matmul dot_S51x1024_S1024x1024_S51x1024_1_1_0_0_n_n none wv xv (constant (F := Ideal) S51x1024 .f32 0x00000000#32) (ix2 c q)
      = ∑ k : Fin 1024, wv (ix2 c k) * xv (ix2 q k) := by
  simp only [matmul]
  rw [Ideal.matmul_constant_zero_apply, ← Equiv.sum_comp (contrEquiv1 dot_S51x1024_S1024x1024_S51x1024_1_1_0_0_n_n 1024 rfl rfl).symm]
  refine Finset.sum_congr rfl fun k _ => ?_
  have hk := contrEquiv1_symm_val dot_S51x1024_S1024x1024_S51x1024_1_1_0_0_n_n 1024 rfl rfl k
  have el : dot_S51x1024_S1024x1024_S51x1024_1_1_0_0_n_n.lhsIdx (ix2 c q) ((contrEquiv1 dot_S51x1024_S1024x1024_S51x1024_1_1_0_0_n_n 1024 rfl rfl).symm k) = ix2 c k := funext fun a => Fin.ext (by
    match a with
    | ⟨0, _⟩ => exact lhs_0 _ _
    | ⟨1, _⟩ => exact (lhs_1 _ _).trans hk)
  have er : dot_S51x1024_S1024x1024_S51x1024_1_1_0_0_n_n.rhsIdx (ix2 c q) ((contrEquiv1 dot_S51x1024_S1024x1024_S51x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## Reductions over the class axis of a `[51, 1024]` vector -/

/-- The index of a `[51, 1024]` vector that reduces, over the class axis, to column `q`, with class `c` put back. -/
theorem lift_classes (h : S51x1024.Reduces [0] S1024) (q : Fin 1024) (c : Fin 51) : h.lift (ix1 q) c = ix2 c q :=
  funext fun a => Fin.ext (by match a with | ⟨0, _⟩ => rfl | ⟨1, _⟩ => rfl)

/-- The sum over the class axis, kept as a one-row matrix: at column `q` the sum over classes. -/
theorem classSum_at (E : FVec Ideal S51x1024 .f32) (h : S51x1024.Reduces [0] S1024) (hφ : FKind.Formats .f32)
    (hacc : (0x00000000#32 : BitVec 32) = FKind.add.neutral .f32 hφ) (h2 : S1024.ShapeCasts S1x1024) (u : Fin 1) (q : Fin 1024) :
    shapeCast S1x1024 (multiReduction .add [0] S1024 E 0x00000000#32 h hφ hacc) h2 (ix2 u q) = ∑ c : Fin 51, E (ix2 c q) := by
  refine (shapeCast_a_1a_apply _ h2 u q).trans ?_
  refine (Ideal.multiReduction_add_single E 0x00000000#32 h hφ hacc (ix1 q)).trans ?_
  exact Finset.sum_congr rfl fun c _ => congrArg E (lift_classes h q c)

/-- The maximum over the class axis from -∞, kept as a one-row matrix and broadcast back down the rows: at
    (class, column `q`) the maximum over classes of column `q`. -/
theorem classMax_at (L : FVec Ideal S51x1024 .f32) (h : S51x1024.Reduces [0] S1024) (hφ : FKind.Formats .f32)
    (hacc : (0xFF800000#32 : BitVec 32) = FKind.maximumf.neutral .f32 hφ) (h2 : S1024.ShapeCasts S1x1024)
    (h3 : S1x1024.Broadcasts S51x1024) (c : Fin 51) (q : Fin 1024) :
    broadcastTo S51x1024 (shapeCast S1x1024 (multiReduction .maximumf [0] S1024 L 0xFF800000#32 h hφ hacc) h2) h3 (ix2 c q)
      = (Finset.univ : Finset (Fin 51)).fold max ⊥ (fun c' => L (ix2 c' q)) := by
  refine (broadcastTo_1b_ab_apply _ h3 c q).trans ?_
  refine (shapeCast_a_1a_apply _ h2 0 q).trans ?_
  refine (Ideal.multiReduction_maximumf_single L 0xFF800000#32 h hφ hacc (ix1 q)).trans ?_
  rw [show FloatOps.ofBits (F := Ideal) .f32 0xFF800000#32 = ⊥ from ofBits_ninf_f32]
  exact congrArg (fun f : Fin 51 → EReal => Finset.fold max ⊥ f Finset.univ)
    (funext fun c' : Fin 51 => congrArg L (lift_classes h q c'))

/-! ## The payloads -/

variable (wv : FVec Ideal S51x1024 .f32) (xv : FVec Ideal S1024x1024 .f32) (bv nv : FVec Ideal S51x1 .f32)

/-- The logits vector of the body at (class `c`, row `q`). -/
theorem logits_at (h1 : S51x1.ShapeCasts S51x1) (h2 : S51x1.Broadcasts S51x1024) (c : Fin 51) (q : Fin 1024) :
    addf (matmul dot_S51x1024_S1024x1024_S51x1024_1_1_0_0_n_n none wv xv (constant (F := Ideal) S51x1024 .f32 0x00000000#32))
        (broadcastTo S51x1024 (shapeCast S51x1 bv h1) h2) (ix2 c q)
      = rowLogit (blkRow xv q) (wMat wv) (col51 bv) c := by
  rw [addf_apply, matmul_at, shapeCast_self]
  show _ = (∑ k : Fin 1024, xv (ix2 q k) * wv (ix2 c k)) + bv (ix2 c 0)
  exact congrArg₂ (· + ·) (Finset.sum_congr rfl fun k _ => mul_comm _ _) (Cert.LibColumn.broadcastTo_a1_ab_apply bv h2 c q)

/-- The exponentials the body keeps: at (class `c`, row `q`) the shifted exponential of that row and class. -/
theorem pay1_at (c : Fin 51) (q : Fin 1024) :
    Gen.k0_pay1 (F := Ideal) wv xv bv (ix2 c q) = rowExp (blkRow xv q) (wMat wv) (col51 bv) c := by
  unfold Gen.k0_pay1
  dsimp only
  unfold rowExp
  show Ideal.exp (_ - _) = Ideal.exp (_ - _)
  refine congrArg₂ (fun a m => Ideal.exp (a - m)) (logits_at wv xv bv _ _ c q) ?_
  refine (classMax_at _ _ _ _ _ _ c q).trans ?_
  unfold rowMax
  exact congrArg (fun f : Fin 51 → EReal => Finset.fold max ⊥ f Finset.univ)
    (funext fun c' : Fin 51 => logits_at wv xv bv _ _ c' q)

/-- The reciprocal the body keeps as a one-row matrix: at column `q` the quotient of `1` by that row's denominator. -/
theorem pay2_at (u : Fin 1) (q : Fin 1024) :
    Gen.k0_pay2 (F := Ideal) wv xv bv (ix2 u q) = Ideal.div 1 (rowDen (blkRow xv q) (wMat wv) (col51 bv)) := by
  unfold Gen.k0_pay2
  dsimp only
  show Ideal.div (Ideal.ofBits .f32 0x3F800000#32) _ = _
  rw [ofBits_one_f32]
  refine congrArg (Ideal.div 1) ?_
  refine (classSum_at _ _ _ _ _ u q).trans ?_
  unfold rowDen
  exact Finset.sum_congr rfl fun c _ => pay1_at wv xv bv c q

/-- The first stored vector: at (class `c`, row `q`) the exponential times the row's reciprocal. -/
theorem pay3_at (c : Fin 51) (q : Fin 1024) :
    Gen.k0_pay3 (F := Ideal) wv xv bv (ix2 c q) = rowProbsK (blkRow xv q) (wMat wv) (col51 bv) c := by
  unfold Gen.k0_pay3
  show Gen.k0_pay1 (F := Ideal) wv xv bv (ix2 c q) * broadcastTo S51x1024 (Gen.k0_pay2 (F := Ideal) wv xv bv) _ (ix2 c q) = _
  unfold rowProbsK
  refine congrArg₂ (· * ·) (pay1_at wv xv bv c q) ?_
  refine (broadcastTo_1b_ab_apply _ _ c q).trans ?_
  exact pay2_at wv xv bv 0 q

/-- The second stored vector, a `[1, 1, 1024]` block: at row `q` the class-sum of exponential times bin value, times
    the row's reciprocal. -/
theorem pay4_at (q : Fin 1024) :
    Gen.k0_pay4 (F := Ideal) wv xv bv nv (ix3 (0 : Fin 1) (0 : Fin 1) q)
      = rowValueK (blkRow xv q) (wMat wv) (col51 bv) (col51 nv) := by
  unfold Gen.k0_pay4
  dsimp only
  refine (shapeCast_apply _ _ (ix3 (0 : Fin 1) (0 : Fin 1) q) (ix1 q) ?_).trans ?_
  · rw [Shape.rowMajor_val_one, Shape.rowMajor_val_three]
    show q.val = (0 * 1 + 0) * 1024 + q.val
    omega
  refine (shapeCast_1a_a_apply _ _ q).trans ?_
  show shapeCast S1x1024 _ _ (ix2 (0 : Fin 1) q) * Gen.k0_pay2 (F := Ideal) wv xv bv (ix2 (0 : Fin 1) q) = _
  unfold rowValueK
  refine congrArg₂ (· * ·) ?_ (pay2_at wv xv bv 0 q)
  refine (classSum_at _ _ _ _ _ 0 q).trans ?_
  refine Finset.sum_congr rfl fun c _ => ?_
  show Gen.k0_pay1 (F := Ideal) wv xv bv (ix2 c q) * broadcastTo S51x1024 (shapeCast S51x1 nv _) _ (ix2 c q) = _
  refine congrArg₂ (· * ·) (pay1_at wv xv bv c q) ?_
  rw [shapeCast_self]
  exact Cert.LibColumn.broadcastTo_a1_ab_apply nv _ c q

end Cert.Proof.Payload

end
-- ==== Proof.KernelValue.lean ====
/-
  What the idealized kernel's two result arrays hold after the run, as the specification's arrays in the
  multiply-by-the-reciprocal arrangement.

  The grid has 16 points. Point `t` reads rows `1024 t … 1024 t + 1023` of the input (all their features), the
  whole weights, and the bias and the bin values as `[51, 1]` columns (the host reshapes them before the call). It
  writes columns `1024 t … 1024 t + 1023` of a `[51, 16384]` array (classes by rows: the probabilities, transposed)
  and row `t` of a `[16, 1, 1024]` array (the expected values of its 1024 rows). The written blocks tile both arrays.
  After the call the host transposes the first array to `[16384, 51]` and flattens the second to `[16384]`:
  entry `r` of the flattening is entry `(r / 1024, 0, r % 1024)`.
-/
import proofs.«142988_g26946624815573_cont_9to1_241_19_alg».proof.Defs
import proofs.«142988_g26946624815573_cont_9to1_241_19_alg».proof.Proof.Gen.KernelIdeal.Frame
import proofs.«142988_g26946624815573_cont_9to1_241_19_alg».proof.Proof.Payload
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Proof.KernelValue

open Cert.KernelIdeal Cert.KernelIdeal.Gen Cert.Proof.Head Cert.Proof.Payload

variable (m : (ℓ : Loc nD τ sig) → Buf (Elt Ideal) ℓ) (ρ : Dev nD → PrngReg)

/-- The four argument arrays of core `c`, at their literal types. -/
abbrev argX (c : Dev nD) : FVec Ideal S16384x1024 .f32 := m ((c : Thread nD τ).loc main_arg0)
abbrev argW (c : Dev nD) : FVec Ideal S51x1024 .f32 := m ((c : Thread nD τ).loc main_arg1)
abbrev argB (c : Dev nD) : FVec Ideal S51 .f32 := m ((c : Thread nD τ).loc main_arg2)
abbrev argN (c : Dev nD) : FVec Ideal S51 .f32 := m ((c : Thread nD τ).loc main_arg3)

/-- The grid has 16 points. -/
theorem point_lt (t : Fin cfg0.N) : t.val < 16 := Nat.lt_of_lt_of_eq t.isLt (show cfg0.N = 16 from N_0)

/-- The input row that point `t` sees as row `q` of its block. -/
def rowOf (t : Fin cfg0.N) (q : Fin 1024) : Fin 16384 := ⟨t.val * 1024 + q.val, by have := point_lt t; have := q.isLt; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the input block moves down the rows with the point, the weights,
    bias and bin-value blocks stay, the first output's block moves along the columns and the second's down axis 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 3) = t.val ∧ win0_5.index t (1 : Fin 3) = 0 ∧ win0_5.index t (2 : Fin 3) = 0 :=
  (by decide +kernel : ∀ t : Fin grid0.N, _)

/-! ## The input blocks as parts of the argument arrays -/

/-- Row `q` of point `t`'s input block is row `1024 t + q` of the input. -/
theorem blkRow_eq (c : Dev nD) (t : Fin cfg0.N) (q : Fin 1024) :
    blkRow (iblk m c 0 t : FVec Ideal S1024x1024 .f32) q = xRow (argX m c) (rowOf t q) := by
  obtain ⟨e0, e1, -⟩ := idx_facts t
  funext k
  show (iblk m c 0 t : FVec Ideal S1024x1024 .f32) (ix2 q k) = argX m c (ix2 (rowOf t q) k)
  unfold iblk
  rw [View.read_apply]
  show V m c main_arg0 _ = _
  rw [V_main_arg0]
  refine congrArg (argX m c) (funext fun a => Fin.ext ?_)
  match a with
  | ⟨0, _⟩ => show win0_0.index t (0 : Fin 2) * 1024 + 1 * q.val = t.val * 1024 + q.val; rw [e0]; omega
  | ⟨1, _⟩ => show win0_0.index t (1 : Fin 2) * 1024 + 1 * k.val = k.val; rw [e1]; omega

/-- Every point's weights block is the whole weights array. -/
theorem wblk_eq (c : Dev nD) (t : Fin cfg0.N) : (iblk m c 1 t : FVec Ideal S51x1024 .f32) = argW m c := by
  obtain ⟨-, -, e0, e1, -⟩ := idx_facts t
  funext i
  unfold iblk
  rw [View.read_apply]
  show V m c main_arg1 _ = _
  rw [V_main_arg1]
  refine congrArg (argW m c) (funext fun a => Fin.ext ?_)
  match a with
  | ⟨0, _⟩ => show win0_1.index t (0 : Fin 2) * 51 + 1 * (i 0).val = (i 0).val; rw [e0]; omega
  | ⟨1, _⟩ => show win0_1.index t (1 : Fin 2) * 1024 + 1 * (i 1).val = (i 1).val; rw [e1]; omega

/-- The bias column the region finds is the host's reshape of the bias argument. -/
theorem V_bias (c : Dev nD) :
    (V m c main_call0_v0 : FVec Ideal S51x1 .f32) = shapeCast S51x1 (argB m c) (by decide) := by
  show StableHlo.after hostOps0 (fun b => m (c, b)) (Proc.devRef .tc main_call0_v0) = _
  after_results
  rfl

/-- The bin-value column the region finds is the host's reshape of the bin-value argument. -/
theorem V_bins (c : Dev nD) :
    (V m c main_call0_v1 : FVec Ideal S51x1 .f32) = shapeCast S51x1 (argN m c) (by decide) := by
  show StableHlo.after hostOps0 (fun b => m (c, b)) (Proc.devRef .tc main_call0_v1) = _
  after_results
  rfl

/-- Every point's bias block, by class, is the bias argument. -/
theorem bcol_eq (c : Dev nD) (t : Fin cfg0.N) : col51 (iblk m c 2 t : FVec Ideal S51x1 .f32) = vec51 (argB m c) := by
  obtain ⟨-, -, -, -, e0, e1, -⟩ := idx_facts t
  funext k
  show (iblk m c 2 t : FVec Ideal S51x1 .f32) (ix2 k 0) = argB m c (ix1 k)
  unfold iblk
  rw [View.read_apply]
  show (V m c main_call0_v0 : FVec Ideal S51x1 .f32) _ = _
  rw [V_bias]
  refine Eq.trans (congrArg _ (funext fun a => Fin.ext ?_)) (Cert.LibColumn.shapeCast_a_a1_apply (argB m c) _ k 0)
  match a with
  | ⟨0, _⟩ => show win0_2.index t (0 : Fin 2) * 51 + 1 * k.val = k.val; rw [e0]; omega
  | ⟨1, _⟩ => show win0_2.index t (1 : Fin 2) * 1 + 1 * 0 = 0; rw [e1]

/-- Every point's bin-value block, by class, is the bin-value argument. -/
theorem ncol_eq (c : Dev nD) (t : Fin cfg0.N) : col51 (iblk m c 3 t : FVec Ideal S51x1 .f32) = vec51 (argN m c) := by
  obtain ⟨-, -, -, -, -, -, e0, e1, -⟩ := idx_facts t
  funext k
  show (iblk m c 3 t : FVec Ideal S51x1 .f32) (ix2 k 0) = argN m c (ix1 k)
  unfold iblk
  rw [View.read_apply]
  show (V m c main_call0_v1 : FVec Ideal S51x1 .f32) _ = _
  rw [V_bins]
  refine Eq.trans (congrArg _ (funext fun a => Fin.ext ?_)) (Cert.LibColumn.shapeCast_a_a1_apply (argN m c) _ k 0)
  match a with
  | ⟨0, _⟩ => show win0_3.index t (0 : Fin 2) * 51 + 1 * k.val = k.val; rw [e0]; omega
  | ⟨1, _⟩ => show win0_3.index t (1 : Fin 2) * 1 + 1 * 0 = 0; rw [e1]

/-! ## What the region leaves in its two arrays -/

/-- The probabilities, classes by rows. -/
def probsT (c : Dev nD) : FVec Ideal S51x16384 .f32 :=
  fun i => rowProbsK (xRow (argX m c) (i 1)) (wMat (argW m c)) (vec51 (argB m c)) (i 0)

/-- The expected values, 1024 rows to each of 16 blocks. -/
def valueB (c : Dev nD) : FVec Ideal S16x1x1024 .f32 :=
  fun i => rowValueK (xRow (argX m c) ⟨(i 0).val * 1024 + (i 2).val, by
      have h0 : (i 0).val < 16 := (i 0).isLt; have h2 : (i 2).val < 1024 := (i 2).isLt; omega⟩)
    (wMat (argW m c)) (vec51 (argB m c)) (vec51 (argN m c))

/-- What point `t` writes back to the first array is block `t` of the transposed probabilities. -/
theorem flushed4_eq (c : Dev nD) (t : Fin cfg0.N) :
    (dats m 0 c).flushed 4 t = ((cfg0.win 4).blk t).view.read (Elt Ideal) (probsT m c) := by
  obtain ⟨-, -, -, -, -, -, -, -, e0, e1, -⟩ := idx_facts t
  show (cfg0.win 4).cut (grid0.coords t) ((dats m 0 c).after 4 t) = _
  rw [after0_4]
  unfold out0_4
  rw [View.canon_unit_zero hz2]
  simp only [View.ld_unit_zero (S := S51x1024) hz2, View.ld_unit_zero (S := S1024x1024) hz2, View.ld_unit_zero (S := S51x1) hz2]
  funext j
  obtain ⟨k, q, rfl⟩ : ∃ (k : Fin 51) (q : Fin 1024), j = ix2 k q := ⟨j 0, j 1, eq_ix2 j⟩
  have hemb : ((cfg0.win 4).blk t).view.emb (ix2 k q) = ix2 k (rowOf t q) := funext fun a => Fin.ext (by
    match a with
    | ⟨0, _⟩ => show win0_4.index t (0 : Fin 2) * 51 + 1 * k.val = k.val; rw [e0]; omega
    | ⟨1, _⟩ => show win0_4.index t (1 : Fin 2) * 1024 + 1 * q.val = t.val * 1024 + q.val; rw [e1]; omega)
  show Gen.k0_pay3 (F := Ideal) (iblk m c 1 t) (iblk m c 0 t) (iblk m c 2 t) (ix2 k q)
    = probsT m c (((cfg0.win 4).blk t).view.emb (ix2 k q))
  rw [hemb]
  refine (pay3_at _ _ _ k q).trans ?_
  rw [blkRow_eq m c t q, wblk_eq m c t, bcol_eq m c t]
  rfl

/-- An index of the first array is in point `t`'s block iff each coordinate is in the block's range on its axis. -/
theorem mem_blk4 (t : Fin cfg0.N) (i : S51x16384.Idx) :
    i ∈ ((cfg0.win 4).blk t).view.set ↔ ∀ a : Fin 2, win0_4.index t a * S51x1024.size a ≤ (i a).val ∧ (i a).val < win0_4.index t a * S51x1024.size a + S51x1024.size a := by
  show i ∈ ((View.whole main_call0_v2_0).slice (win0_4.rect t)).set ↔ _
  rw [View.set_slice_whole, Rect.mem_set_unit]
  exact Iff.rfl

/-- The written blocks cover the first array: column `r` is in the block of point `r / 1024`. -/
theorem cover4 (i : S51x16384.Idx) :
    ∃ t : Fin cfg0.N, (cfg0.win 4).flush t = true ∧ i ∈ ((cfg0.win 4).blk t).view.set := by
  have h0 : (i 0).val < 51 := (i 0).isLt
  have h1 : (i 1).val < 16384 := (i 1).isLt
  have hN : cfg0.N = 16 := N_0
  refine ⟨⟨(i 1).val / 1024, by rw [hN]; omega⟩, flush0_4 _, ?_⟩
  obtain ⟨-, -, -, -, -, -, -, -, e0, e1, -⟩ := idx_facts ⟨(i 1).val / 1024, by rw [hN]; omega⟩
  rw [mem_blk4]
  intro a
  match a with
  | ⟨0, _⟩ =>
    show win0_4.index _ (0 : Fin 2) * 51 ≤ (i 0).val ∧ (i 0).val < win0_4.index _ (0 : Fin 2) * 51 + 51
    rw [e0]; omega
  | ⟨1, _⟩ =>
    show win0_4.index _ (1 : Fin 2) * 1024 ≤ (i 1).val ∧ (i 1).val < win0_4.index _ (1 : Fin 2) * 1024 + 1024
    rw [e1]; show (i 1).val / 1024 * 1024 ≤ (i 1).val ∧ (i 1).val < (i 1).val / 1024 * 1024 + 1024; omega

/-- The first array after the run is the transposed probabilities. -/
theorem final4 (c : Dev nD) : (dats m 0 c).arrAt 4 cfg0.N = probsT m c :=
  (dats m 0 c).arrAt_eq_of_cover 4 (probsT m c) (fun t _ => flushed4_eq m c t) cover4

/-- What point `t` writes back to the second array is block `t` of the blocked expected values. -/
theorem flushed5_eq (c : Dev nD) (t : Fin cfg0.N) :
    (dats m 0 c).flushed 5 t = ((cfg0.win 5).blk t).view.read (Elt Ideal) (valueB m c) := by
  obtain ⟨-, -, -, -, -, -, -, -, -, -, e0, e1, e2⟩ := idx_facts t
  show (cfg0.win 5).cut (grid0.coords t) ((dats m 0 c).after 5 t) = _
  rw [after0_5]
  unfold out0_5
  rw [View.canon_unit_zero hz3]
  simp only [View.ld_unit_zero (S := S51x1024) hz2, View.ld_unit_zero (S := S1024x1024) hz2, View.ld_unit_zero (S := S51x1) hz2]
  funext j
  obtain ⟨u, v, q, rfl⟩ : ∃ (u v : Fin 1) (q : Fin 1024), j = ix3 u v q := ⟨j 0, j 1, j 2, eq_ix3 j⟩
  obtain rfl : u = 0 := Subsingleton.elim _ _
  obtain rfl : v = 0 := Subsingleton.elim _ _
  have hemb : ((cfg0.win 5).blk t).view.emb (ix3 (0 : Fin 1) (0 : Fin 1) q) = ix3 (⟨t.val, point_lt t⟩ : Fin 16) (0 : Fin 1) q :=
    funext fun a => Fin.ext (by
      match a with
      | ⟨0, _⟩ => show win0_5.index t (0 : Fin 3) * 1 + 1 * 0 = t.val; rw [e0]; omega
      | ⟨1, _⟩ => show win0_5.index t (1 : Fin 3) * 1 + 1 * 0 = 0; rw [e1]
      | ⟨2, _⟩ => show win0_5.index t (2 : Fin 3) * 1024 + 1 * q.val = q.val; rw [e2]; omega)
  show Gen.k0_pay4 (F := Ideal) (iblk m c 1 t) (iblk m c 0 t) (iblk m c 2 t) (iblk m c 3 t) (ix3 (0 : Fin 1) (0 : Fin 1) q)
    = valueB m c (((cfg0.win 5).blk t).view.emb (ix3 (0 : Fin 1) (0 : Fin 1) q))
  rw [hemb]
  refine (pay4_at _ _ _ _ q).trans ?_
  rw [blkRow_eq m c t q, wblk_eq m c t, bcol_eq m c t, ncol_eq m c t]
  rfl

/-- An index of the second array is in point `t`'s block iff each coordinate is in the block's range on its axis. -/
theorem mem_blk5 (t : Fin cfg0.N) (i : S16x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_call0_v2_1).slice (win0_5.rect t)).set ↔ _
  rw [View.set_slice_whole, Rect.mem_set_unit]
  exact Iff.rfl

/-- The written blocks cover the second array: entry `(b, 0, j)` is in the block of point `b`. -/
theorem cover5 (i : S16x1x1024.Idx) :
    ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1024 := (i 2).isLt
  have hN : cfg0.N = 16 := N_0
  refine ⟨⟨(i 0).val, by rw [hN]; exact h0⟩, flush0_5 _, ?_⟩
  obtain ⟨-, -, -, -, -, -, -, -, -, -, e0, e1, e2⟩ := idx_facts ⟨(i 0).val, by rw [hN]; exact h0⟩
  rw [mem_blk5]
  intro a
  match a with
  | ⟨0, _⟩ =>
    show win0_5.index _ (0 : Fin 3) * 1 ≤ (i 0).val ∧ (i 0).val < win0_5.index _ (0 : Fin 3) * 1 + 1
    rw [e0]; show (i 0).val * 1 ≤ (i 0).val ∧ (i 0).val < (i 0).val * 1 + 1; omega
  | ⟨1, _⟩ =>
    show win0_5.index _ (1 : Fin 3) * 1 ≤ (i 1).val ∧ (i 1).val < win0_5.index _ (1 : Fin 3) * 1 + 1
    rw [e1]; omega
  | ⟨2, _⟩ =>
    show win0_5.index _ (2 : Fin 3) * 1024 ≤ (i 2).val ∧ (i 2).val < win0_5.index _ (2 : Fin 3) * 1024 + 1024
    rw [e2]; omega

/-- The second array after the run is the blocked expected values. -/
theorem final5 (c : Dev nD) : (dats m 0 c).arrAt 5 cfg0.N = valueB m c :=
  (dats m 0 c).arrAt_eq_of_cover 5 (valueB m c) (fun t _ => flushed5_eq m c t) cover5

/-! ## The host operations after the call -/

/-- What the host operations after the call find in the first array. -/
theorem tail_arr4 (c : Dev nD) :
    (Pipeline.withArrays (cfgs 0).spec c (V0 m c) (fun w => (dats m 0 c).arrAt w (cfgs 0).N)
      (Proc.devRef .tc main_call0_v2_0) : FVec Ideal S51x16384 .f32) = probsT m c :=
  (Pipeline.withArrays_arr spec0 launch0.win.arr_inj c _ _ 4).trans (final4 m c)

/-- What they find in the second array. -/
theorem tail_arr5 (c : Dev nD) :
    (Pipeline.withArrays (cfgs 0).spec c (V0 m c) (fun w => (dats m 0 c).arrAt w (cfgs 0).N)
      (Proc.devRef .tc main_call0_v2_1) : FVec Ideal S16x1x1024 .f32) = valueB m c :=
  (Pipeline.withArrays_arr spec0 launch0.win.arr_inj c _ _ 5).trans (final5 m c)

/-- The first result: the transpose of the first array, the probabilities by (row, class). -/
theorem result0 (c : Dev nD) :
    (Pipeline.afterTail₀ cfgs (dats m) 0 (V0 m) [hostOps1] c main_v0_0 : FVec Ideal S16384x51 .f32)
      = probsArrK (argX m c) (argW m c) (argB m c) := by
  unfold Pipeline.afterTail₀
  show StableHlo.after hostOps1 _ (Proc.devRef .tc main_v0_0) = _
  after_results
  funext i
  obtain ⟨r, k, rfl⟩ : ∃ (r : Fin 16384) (k : Fin 51), i = ix2 r k := ⟨i 0, i 1, eq_ix2 i⟩
  show transpose S16384x51 [1, 0] (Pipeline.withArrays (cfgs 0).spec c (V0 m c) (fun w => (dats m 0 c).arrAt w (cfgs 0).N)
      (Proc.devRef .tc main_call0_v2_0) : FVec Ideal S51x16384 .f32) _ (ix2 r k) = _
  refine (transpose_ix2_apply _ _ r k).trans ?_
  exact congrFun (tail_arr4 m c) (ix2 k r)

/-- The second result: the flattening of the second array; entry `r` is entry `(r / 1024, 0, r % 1024)`, the
    expected value of input row `r`. -/
theorem result1 (c : Dev nD) :
    (Pipeline.afterTail₀ cfgs (dats m) 0 (V0 m) [hostOps1] c main_v0_1 : FVec Ideal S16384 .f32)
      = valueArrK (argX m c) (argW m c) (argB m c) (argN m c) := by
  unfold Pipeline.afterTail₀
  show StableHlo.after hostOps1 _ (Proc.devRef .tc main_v0_1) = _
  after_results
  funext i
  obtain ⟨r, rfl⟩ : ∃ r : Fin 16384, i = ix1 r := ⟨i 0, eq_ix1 i⟩
  have hr : r.val < 16384 := r.isLt
  show shapeCast S16384 (Pipeline.withArrays (cfgs 0).spec c (V0 m c) (fun w => (dats m 0 c).arrAt w (cfgs 0).N)
      (Proc.devRef .tc main_call0_v2_1) : FVec Ideal S16x1x1024 .f32) _ (ix1 r) = _
  refine (shapeCast_apply _ _ (ix1 r)
    (ix3 (⟨r.val / 1024, by omega⟩ : Fin 16) (0 : Fin 1) (⟨r.val % 1024, by omega⟩ : Fin 1024)) ?_).trans ?_
  · rw [Shape.rowMajor_val_three, Shape.rowMajor_val_one]
    show (r.val / 1024 * 1 + 0) * 1024 + r.val % 1024 = r.val
    omega
  refine (congrFun (tail_arr5 m c) _).trans ?_
  have e : (⟨r.val / 1024 * 1024 + r.val % 1024, by omega⟩ : Fin 16384) = r := Fin.ext (by
    show r.val / 1024 * 1024 + r.val % 1024 = r.val; omega)
  exact congrArg (fun r' : Fin 16384 => rowValueK (xRow (argX m c) r') (wMat (argW m c)) (vec51 (argB m c)) (vec51 (argN m c))) e

/-! ## The run, read -/

/-- Every weakly fair execution of the idealized kernel terminates with the two results at the specification's arrays
    (in the arrangement that multiplies by the reciprocal) and the four arguments unchanged. -/
theorem run : θ_run defs (onTc (τ := τ) (main (F := Ideal))) ⟨m, fun _ => 0, ρ⟩ fun r => ∀ c : Dev nD,
      r.2.mem ((c.tc : Thread nD τ).loc main_v0_0) = probsArrK (argX m c) (argW m c) (argB m c)
      ∧ r.2.mem ((c.tc : Thread nD τ).loc main_v0_1) = valueArrK (argX m c) (argW m c) (argB m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v0_0 (Pipeline.mem_restRefs_of main_v0_0 (by decide) (by decide))).trans (result0 m c),
      ((h c).2 main_v0_1 (Pipeline.mem_restRefs_of main_v0_1 (by decide) (by decide))).trans (result1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.KernelValue

end
-- ==== Proof.lean ====
/-
  A fused distributional value head against its jnp reference, over the extended reals.

  Both programs compute, for each of 16384 input rows `x_r` (1024 features), with weights `W` (51 classes), bias `b`
  and bin values `v`: the logits `l_c = ∑ k, x_r k · W c k + b c`, their maximum `M`, the shifted exponentials
  `e_c = exp (l_c − M)`, the denominator `s = ∑ c, e_c`, the probabilities and their expected bin value.

  The reference divides: `p_c = e_c / s` and `∑ c, p_c · v c`. The kernel, one block of 1024 rows per grid point and
  in the transposed orientation (classes by rows), multiplies by the reciprocal: `e_c · (1 / s)` and
  `(∑ c, e_c · v c) · (1 / s)`; the host then transposes the probabilities back and flattens the values.

  The two differ in the order of the factors of each product (commutativity, valid on every extended real) and in
  the reciprocal taken out of the sum. The latter is where the precondition is used: with finite inputs the logits are
  reals, so `M` is a real, each `e_c` a positive real and `s` a positive real; then `1 / s` is the nonnegative real
  `s⁻¹`, dividing by `s` is multiplying by it, and a nonnegative real factor distributes over any sum of extended reals
  (the bin values need not be finite for this).

  Modules: RowSpec (one row, both arrangements, and their agreement on reals), ArraySpec (the result arrays),
  Finite (the precondition makes every entry a real), Reference (the reference computes the dividing arrangement),
  Payload (the kernel body's stored values at an index), KernelValue (the kernel's result arrays after the run).
-/
import proofs.«142988_g26946624815573_cont_9to1_241_19_alg».proof.Defs
import proofs.«142988_g26946624815573_cont_9to1_241_19_alg».proof.Proof.Gen.Kernel
import proofs.«142988_g26946624815573_cont_9to1_241_19_alg».proof.Proof.Gen.Kernel.Frame
import proofs.«142988_g26946624815573_cont_9to1_241_19_alg».proof.Proof.Gen.KernelIdeal
import proofs.«142988_g26946624815573_cont_9to1_241_19_alg».proof.Proof.Gen.KernelIdeal.Frame
import proofs.«142988_g26946624815573_cont_9to1_241_19_alg».proof.Proof.Gen.ReferenceIdeal
import proofs.«142988_g26946624815573_cont_9to1_241_19_alg».proof.Proof.Gen.ReferenceIdeal.Run
import proofs.«142988_g26946624815573_cont_9to1_241_19_alg».proof.Proof.Gen.ReferenceIdeal.Read
import proofs.«142988_g26946624815573_cont_9to1_241_19_alg».proof.Proof.Gen.Pre_finite_inputs
import proofs.«142988_g26946624815573_cont_9to1_241_19_alg».proof.Proof.ArraySpec
import proofs.«142988_g26946624815573_cont_9to1_241_19_alg».proof.Proof.Finite
import proofs.«142988_g26946624815573_cont_9to1_241_19_alg».proof.Proof.Reference
import proofs.«142988_g26946624815573_cont_9to1_241_19_alg».proof.Proof.KernelValue
import Idealize.ShloMosaic.Adequacy
import Idealize.ShloMosaic.Init

noncomputable section

namespace Cert.Proof

open Idealize.ShloMosaic Idealize.ShloMosaic.TcCoe Idealize.SL.Sem Cert.Proof.Head

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the idealized kernel and the idealized reference both end with the
    probabilities and the expected values of the specification: the reference computes them in the dividing
    arrangement, the kernel in the reciprocal arrangement, and under the precondition the two are the same arrays. -/
theorem algebraic : Cert.algebraic_KernelIdeal_ReferenceIdeal := by
  intro m ρ m' ρ' hpre hagree
  refine ⟨fun c => probsArr (KernelValue.argX m c) (KernelValue.argW m c) (KernelValue.argB m c),
    fun c => valueArr (KernelValue.argX m c) (KernelValue.argW m c) (KernelValue.argB m c) (KernelValue.argN m c), ?_, ?_⟩
  · refine (θ_run Cert.KernelIdeal.defs _ _).mono (fun r h c => ?_) (KernelValue.run m ρ)
    obtain ⟨hx, hw, hb, -⟩ := real_of_pre _ _ _ _ (hpre c)
    obtain ⟨e0, e1⟩ := recip_arrays_eq (KernelValue.argX m c) (KernelValue.argW m c) (KernelValue.argB m c)
      (KernelValue.argN m c) hx hw hb
    exact ⟨(h c).1.trans e0, (h c).2.1.trans e1, (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [(hagree c).1, (hagree c).2.1, (hagree c).2.2.1]
      exact (Cert.ReferenceIdeal.Read.val_main_v15_eq _ _ _).trans (Reference.probs_eq _ _ _)
    · rw [(hagree c).1, (hagree c).2.1, (hagree c).2.2.1, (hagree c).2.2.2]
      exact (Cert.ReferenceIdeal.Read.val_main_v19_eq _ _ _ _).trans (Reference.value_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
